-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x32 : Shape := ⟨2, ![128, 32]⟩
abbrev S32 : Shape := ⟨1, ![32]⟩
abbrev S32x32 : Shape := ⟨2, ![32, 32]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x32 : S_.BroadcastsInDim S128x32 (![] : Fin 0 → Fin S128x32.rank)
  reducesTo_S128x32_S_d0_1 : S128x32.ReducesTo [0, 1] S_
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_

variable [Facts]

def fn_part1 {F : FTy → Type} [FloatOps F] (main_arg4 : FVec F S32x32 .f32) (main_arg5 : FVec F S32 .f32) (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  let main_v19 : FVec F S32x32 .f32 := Host.absf main_arg4
  let main_cst_6 : FVec F S_ .f32 := constant S_ .f32 0x7F800000#32
  let main_v20 : FVec F S32x32 .f32 := broadcastInDim S32x32 ![] bcast_S_S32x32 main_cst_6
  let main_v21 : IVec S32x32 1 := cmpf .olt main_v19 main_v20
  let main_c_7 : IVec S_ 1 := constantI S_ 1 1#1
  let main_v22 : IVec S_ 1 := (fun x v => Host.reduce IntOp.andi x v reducesTo_S32x32_S_d0_1 h_S_) main_v21 main_c_7
  let main_v23 : IVec S_ 1 := andi main_v18 main_v22
  let main_v24 : FVec F S32 .f32 := Host.absf main_arg5
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  main_v28

def fn {F : FTy → Type} [FloatOps F] (main_arg0 : FVec F S10000x128 .f32) (main_arg1 : FVec F S10000x10000 .f32) (main_arg2 : FVec F S128x32 .f32) (main_arg3 : FVec F S32 .f32) (main_arg4 : FVec F S32x32 .f32) (main_arg5 : FVec F S32 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x32 .f32 := Host.absf main_arg2
  let main_cst_2 : FVec F S_ .f32 := constant S_ .f32 0x7F800000#32
  let main_v10 : FVec F S128x32 .f32 := broadcastInDim S128x32 ![] bcast_S_S128x32 main_cst_2
  let main_v11 : IVec S128x32 1 := cmpf .olt main_v9 main_v10
  let main_c_3 : IVec S_ 1 := constantI S_ 1 1#1
  let main_v12 : IVec S_ 1 := (fun x v => Host.reduce IntOp.andi x v reducesTo_S128x32_S_d0_1 h_S_) main_v11 main_c_3
  let main_v13 : IVec S_ 1 := andi main_v8 main_v12
  let main_v14 : FVec F S32 .f32 := Host.absf main_arg3
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_arg4 main_arg5 main_v13 main_v16
-- ==== Kernel.lean ====
abbrev S10000x128 : Shape := ⟨2, ![10000, 128]⟩
abbrev S10000x10000 : Shape := ⟨2, ![10000, 10000]⟩
abbrev S128x32 : Shape := ⟨2, ![128, 32]⟩
abbrev S32 : Shape := ⟨1, ![32]⟩
abbrev S32x32 : Shape := ⟨2, ![32, 32]⟩
abbrev S10000x32 : Shape := ⟨2, ![10000, 32]⟩
abbrev S1x32 : Shape := ⟨2, ![1, 32]⟩
abbrev S80x10000 : Shape := ⟨2, ![80, 10000]⟩
abbrev S80x32 : Shape := ⟨2, ![80, 32]⟩

abbrev nBuf : Space → Nat
  | .hbm => 11
  | .vmem => 17
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x32, .f32⟩
  | .hbm, ⟨3, _⟩ => ⟨S32, .f32⟩
  | .hbm, ⟨4, _⟩ => ⟨S32x32, .f32⟩
  | .hbm, ⟨5, _⟩ => ⟨S32, .f32⟩
  | .hbm, ⟨6, _⟩ => ⟨S10000x32, .f32⟩
  | .hbm, ⟨7, _⟩ => ⟨S1x32, .f32⟩
  | .hbm, ⟨8, _⟩ => ⟨S10000x32, .f32⟩
  | .hbm, ⟨9, _⟩ => ⟨S1x32, .f32⟩
  | .hbm, ⟨10, _⟩ => ⟨S10000x32, .f32⟩
  | .local _ .vmem, ⟨0, _⟩ => ⟨S10000x128, .f32⟩
  | .local _ .vmem, ⟨1, _⟩ => ⟨S128x32, .f32⟩
  | .local _ .vmem, ⟨2, _⟩ => ⟨S10000x32, .f32⟩
  | .local _ .vmem, ⟨3, _⟩ => ⟨S80x10000, .f32⟩
  | .local _ .vmem, ⟨4, _⟩ => ⟨S80x10000, .f32⟩
  | .local _ .vmem, ⟨5, _⟩ => ⟨S10000x32, .f32⟩
  | .local _ .vmem, ⟨6, _⟩ => ⟨S1x32, .f32⟩
  | .local _ .vmem, ⟨7, _⟩ => ⟨S32x32, .f32⟩
  | .local _ .vmem, ⟨8, _⟩ => ⟨S80x32, .f32⟩
  | .local _ .vmem, ⟨9, _⟩ => ⟨S80x32, .f32⟩
  | .local _ .vmem, ⟨10, _⟩ => ⟨S80x10000, .f32⟩
  | .local _ .vmem, ⟨11, _⟩ => ⟨S80x10000, .f32⟩
  | .local _ .vmem, ⟨12, _⟩ => ⟨S10000x32, .f32⟩
  | .local _ .vmem, ⟨13, _⟩ => ⟨S1x32, .f32⟩
  | .local _ .vmem, ⟨14, _⟩ => ⟨S32x32, .f32⟩
  | .local _ .vmem, ⟨15, _⟩ => ⟨S80x32, .f32⟩
  | .local _ .vmem, ⟨16, _⟩ => ⟨S80x32, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_stg0_0 : Ref sig .tc := ⟨.vmem, 3, rfl⟩
abbrev cc1_stg0_1 : Ref sig .tc := ⟨.vmem, 4, rfl⟩
abbrev cc1_stg1_0 : Ref sig .tc := ⟨.vmem, 5, rfl⟩
abbrev cc1_stg2_0 : Ref sig .tc := ⟨.vmem, 6, rfl⟩
abbrev cc1_stg3_0 : Ref sig .tc := ⟨.vmem, 7, rfl⟩
abbrev cc1_stg4_0 : Ref sig .tc := ⟨.vmem, 8, rfl⟩
abbrev cc1_stg4_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg3_0 : Ref sig .tc := ⟨.vmem, 14, rfl⟩
abbrev cc2_stg4_0 : Ref sig .tc := ⟨.vmem, 15, rfl⟩
abbrev cc2_stg4_1 : Ref sig .tc := ⟨.vmem, 16, rfl⟩
abbrev cc0_sem0_0 : DmaSem sig := 0
abbrev cc0_sem1_0 : DmaSem sig := 1
abbrev cc0_sem2_0 : DmaSem sig := 2
abbrev cc1_sem0_0 : DmaSem sig := 3
abbrev cc1_sem0_1 : DmaSem sig := 4
abbrev cc1_sem1_0 : DmaSem sig := 5
abbrev cc1_sem2_0 : DmaSem sig := 6
abbrev cc1_sem3_0 : DmaSem sig := 7
abbrev cc1_sem4_0 : DmaSem sig := 8
abbrev cc1_sem4_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem3_0 : DmaSem sig := 14
abbrev cc2_sem4_0 : DmaSem sig := 15
abbrev cc2_sem4_1 : DmaSem sig := 16

abbrev nD : Nat := 1
abbrev τ : Topo := Topo.v7x

variable {F : FTy → Type} [FloatOps F]

abbrev grid0 : Pipeline.Grid := .none

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S10000x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev grid1 : Pipeline.Grid := ⟨1, ![125], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S80x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S32x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S80x32 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![125], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S80x10000 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S10000x32 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x32 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S32x32 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S80x32 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  inb_S10000x128_S10000x128_0_0 : ∀ a, (![0, 0] : Fin 2 → Nat) a + S10000x128.size a ≤ S10000x128.size a
  h_S10000x128 : 0 < S10000x128.numel
  inb_S128x32_S128x32_0_0 : ∀ a, (![0, 0] : Fin 2 → Nat) a + S128x32.size a ≤ S128x32.size a
  h_S128x32 : 0 < S128x32.numel
  inb_S10000x32_S10000x32_0_0 : ∀ a, (![0, 0] : Fin 2 → Nat) a + S10000x32.size a ≤ S10000x32.size a
  h_S10000x32 : 0 < S10000x32.numel
  shapeCasts_S32_S1x32 : S32.ShapeCasts S1x32
  inb_S80x10000_S80x10000_0_0 : ∀ a, (![0, 0] : Fin 2 → Nat) a + S80x10000.size a ≤ S80x10000.size a
  h_S80x10000 : 0 < S80x10000.numel
  shapeCasts_S10000x32_S10000x32 : S10000x32.ShapeCasts S10000x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S80x32 : S1x32.Broadcasts S80x32
  inb_S32x32_S32x32_0_0 : ∀ a, (![0, 0] : Fin 2 → Nat) a + S32x32.size a ≤ S32x32.size a
  h_S32x32 : 0 < S32x32.numel
  inb_S80x32_S80x32_0_0 : ∀ a, (![0, 0] : Fin 2 → Nat) a + S80x32.size a ≤ S80x32.size a
  h_S80x32 : 0 < S80x32.numel
  dot_S10000x128_S128x32_S10000x32_1_0_0_1_n_n_wf : DotDims.WF S10000x128 S128x32 S10000x32 [1] [0] [0] [1] [] []
  dot_S80x10000_S10000x32_S80x32_1_0_0_1_n_n_wf : DotDims.WF S80x10000 S10000x32 S80x32 [1] [0] [0] [1] [] []
  dot_S80x32_S32x32_S80x32_1_0_0_1_n_n_wf : DotDims.WF S80x32 S32x32 S80x32 [1] [0] [0] [1] [] []
  hstage0_0 : ∀ j, (stage0_0 j).IsWhole
  hstage0_1 : ∀ j, (stage0_1 j).IsWhole
  hstage0_2 : ∀ j, (stage0_2 j).IsWhole
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S80x10000.size a ≤ S10000x10000.size a
  hwx1_0 : ∀ i : grid1.Coords, EltTy.bits .f32 = 32 ∨ (Rect.block (s := S10000x10000) S80x10000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x32.size a ≤ S10000x32.size a
  hwx1_1 : ∀ i : grid1.Coords, EltTy.bits .f32 = 32 ∨ (Rect.block (s := S10000x32) S10000x32.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x32.size a ≤ S1x32.size a
  hwx1_2 : ∀ i : grid1.Coords, EltTy.bits .f32 = 32 ∨ (Rect.block (s := S1x32) S1x32.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S32x32.size a ≤ S32x32.size a
  hwx1_3 : ∀ i : grid1.Coords, EltTy.bits .f32 = 32 ∨ (Rect.block (s := S32x32) S32x32.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S80x32.size a ≤ S10000x32.size a
  hwx1_4 : ∀ i : grid1.Coords, EltTy.bits .f32 = 32 ∨ (Rect.block (s := S10000x32) S80x32.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S80x10000.size a ≤ S10000x10000.size a
  hwx2_0 : ∀ i : grid2.Coords, EltTy.bits .f32 = 32 ∨ (Rect.block (s := S10000x10000) S80x10000.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S10000x32.size a ≤ S10000x32.size a
  hwx2_1 : ∀ i : grid2.Coords, EltTy.bits .f32 = 32 ∨ (Rect.block (s := S10000x32) S10000x32.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x32.size a ≤ S1x32.size a
  hwx2_2 : ∀ i : grid2.Coords, EltTy.bits .f32 = 32 ∨ (Rect.block (s := S1x32) S1x32.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S32x32.size a ≤ S32x32.size a
  hwx2_3 : ∀ i : grid2.Coords, EltTy.bits .f32 = 32 ∨ (Rect.block (s := S32x32) S32x32.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S80x32.size a ≤ S10000x32.size a
  hwx2_4 : ∀ i : grid2.Coords, EltTy.bits .f32 = 32 ∨ (Rect.block (s := S10000x32) S80x32.size (cc2_transform_4 i) (hinb2_4 i)).WholeWords (EltTy.packing .f32)

variable [Facts₀]

def dot_S10000x128_S128x32_S10000x32_1_0_0_1_n_n : DotDims S10000x128 S128x32 S10000x32 where
  lhsContracting := [1]
  rhsContracting := [0]
  lhsNonContracting := [0]
  rhsNonContracting := [1]
  lhsBatch := []
  rhsBatch := []
  wf := dot_S10000x128_S128x32_S10000x32_1_0_0_1_n_n_wf
def dot_S80x10000_S10000x32_S80x32_1_0_0_1_n_n : DotDims S80x10000 S10000x32 S80x32 where
  lhsContracting := [1]
  rhsContracting := [0]
  lhsNonContracting := [0]
  rhsNonContracting := [1]
  lhsBatch := []
  rhsBatch := []
  wf := dot_S80x10000_S10000x32_S80x32_1_0_0_1_n_n_wf
def dot_S80x32_S32x32_S80x32_1_0_0_1_n_n : DotDims S80x32 S32x32 S80x32 where
  lhsContracting := [1]
  rhsContracting := [0]
  lhsNonContracting := [0]
  rhsNonContracting := [1]
  lhsBatch := []
  rhsBatch := []
  wf := dot_S80x32_S32x32_S80x32_1_0_0_1_n_n_wf

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_arg2) false false (stage0_1 0) (sem0_1 0) (Memref.isWhole_whole _) (hstage0_1 0)

abbrev win0_2 : Pipeline.Window sig grid0 :=
  Pipeline.Window.whole (Memref.whole main_v0) true false (stage0_2 0) (sem0_2 0) (Memref.isWhole_whole _) (hstage0_2 0)

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S80x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S10000x32.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S32x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v2) S80x32.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_arg1) S80x10000.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v2) S10000x32.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v3) S1x32.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg4) S32x32.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v4) S80x32.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x32 : Shape := ⟨2, ![128, 32]⟩
abbrev S32 : Shape := ⟨1, ![32]⟩
abbrev S32x32 : Shape := ⟨2, ![32, 32]⟩
abbrev S10000x32 : Shape := ⟨2, ![10000, 32]⟩
abbrev S1x32 : Shape := ⟨2, ![1, 32]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x32, .f32⟩
  | .hbm, ⟨3, _⟩ => ⟨S32, .f32⟩
  | .hbm, ⟨4, _⟩ => ⟨S32x32, .f32⟩
  | .hbm, ⟨5, _⟩ => ⟨S32, .f32⟩
  | .hbm, ⟨6, _⟩ => ⟨S10000x32, .f32⟩
  | .hbm, ⟨7, _⟩ => ⟨S10000x32, .f32⟩
  | .hbm, ⟨8, _⟩ => ⟨S1x32, .f32⟩
  | .hbm, ⟨9, _⟩ => ⟨S10000x32, .f32⟩
  | .hbm, ⟨10, _⟩ => ⟨S10000x32, .f32⟩
  | .hbm, ⟨11, _⟩ => ⟨S_, .f32⟩
  | .hbm, ⟨12, _⟩ => ⟨S10000x32, .f32⟩
  | .hbm, ⟨13, _⟩ => ⟨S10000x32, .f32⟩
  | .hbm, ⟨14, _⟩ => ⟨S10000x32, .f32⟩
  | .hbm, ⟨15, _⟩ => ⟨S10000x32, .f32⟩
  | .hbm, ⟨16, _⟩ => ⟨S1x32, .f32⟩
  | .hbm, ⟨17, _⟩ => ⟨S10000x32, .f32⟩
  | .hbm, ⟨18, _⟩ => ⟨S10000x32, .f32⟩
  | .hbm, ⟨19, _⟩ => ⟨S_, .f32⟩
  | .hbm, ⟨20, _⟩ => ⟨S10000x32, .f32⟩
  | .hbm, ⟨21, _⟩ => ⟨S10000x32, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_cst : Ref sig .tc := ⟨.hbm, 11, rfl⟩
abbrev main_call0_v0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_call1_cst : Ref sig .tc := ⟨.hbm, 19, rfl⟩
abbrev main_call1_v0 : Ref sig .tc := ⟨.hbm, 20, rfl⟩
abbrev main_v11 : Ref sig .tc := ⟨.hbm, 21, rfl⟩

abbrev nD : Nat := 1
abbrev τ : Topo := Topo.v7x

variable {F : FTy → Type} [FloatOps F]

class Facts₀ : Prop where
  bcast_S32_S1x32_1 : S32.BroadcastsInDim S1x32 (![1] : Fin 1 → Fin S1x32.rank)
  bcast_S1x32_S10000x32_0_1 : S1x32.BroadcastsInDim S10000x32 (![0, 1] : Fin 2 → Fin S10000x32.rank)
  bcast_S_S10000x32 : S_.BroadcastsInDim S10000x32 (![] : Fin 0 → Fin S10000x32.rank)
  dot_S10000x128_S128x32_S10000x32_1_0_0_1_n_n_wf : DotDims.WF S10000x128 S128x32 S10000x32 [1] [0] [0] [1] [] []
  dot_S10000x10000_S10000x32_S10000x32_1_0_0_1_n_n_wf : DotDims.WF S10000x10000 S10000x32 S10000x32 [1] [0] [0] [1] [] []
  dot_S10000x32_S32x32_S10000x32_1_0_0_1_n_n_wf : DotDims.WF S10000x32 S32x32 S10000x32 [1] [0] [0] [1] [] []

variable [Facts₀]

def dot_S10000x128_S128x32_S10000x32_1_0_0_1_n_n : DotDims S10000x128 S128x32 S10000x32 where
  lhsContracting := [1]
  rhsContracting := [0]
  lhsNonContracting := [0]
  rhsNonContracting := [1]
  lhsBatch := []
  rhsBatch := []
  wf := dot_S10000x128_S128x32_S10000x32_1_0_0_1_n_n_wf
def dot_S10000x10000_S10000x32_S10000x32_1_0_0_1_n_n : DotDims S10000x10000 S10000x32 S10000x32 where
  lhsContracting := [1]
  rhsContracting := [0]
  lhsNonContracting := [0]
  rhsNonContracting := [1]
  lhsBatch := []
  rhsBatch := []
  wf := dot_S10000x10000_S10000x32_S10000x32_1_0_0_1_n_n_wf
def dot_S10000x32_S32x32_S10000x32_1_0_0_1_n_n : DotDims S10000x32 S32x32 S10000x32 where
  lhsContracting := [1]
  rhsContracting := [0]
  lhsNonContracting := [0]
  rhsNonContracting := [1]
  lhsBatch := []
  rhsBatch := []
  wf := dot_S10000x32_S32x32_S10000x32_1_0_0_1_n_n_wf

class Facts : Prop extends Facts₀ where

variable [Facts]
-- ==== Proof.Spec.lean ====
/-
  A two-layer graph convolution on arrays of extended reals, entry by entry.

  With `A` the n × n adjacency, `X` the n × f features, `W₁` (f × h) and `W₂` (h × h) the weights and `b₁`, `b₂` the
  biases, the block is
      relu (A · (relu (A · (X · W₁) + b₁) · W₂) + b₂),
  where `·` is the rows-by-columns product (`prod`), `+ b` adds the one-row matrix `b` to every row and `relu` clamps
  below at zero (`biasRelu` does both). `layer1` is the first convolution followed by the projection with `W₂`;
  `layer2` is the second convolution. Every operation is the exact one on the extended reals; nothing here uses
  a law of arithmetic beyond rewriting under a sum.

  ROWS. Row `a` of a product depends on the left factor only through its row `a`, and `biasRelu` acts entry by entry;
  so row `a` of `layer1 A …` and of `layer2 A …` depends on `A` only through row `a` of `A` (`layer1_rows`,
  `layer2_rows`). That is why a block of consecutive rows of the result can be computed from the same block of rows
  of `A` alone, with the other operands whole.
-/
import Idealize.ShloMosaic.Lib.ValueIdx
import Idealize.ShloMosaic.PureOps.Ideal.Laws

noncomputable section

open scoped BigOperators

namespace Cert.Gcn

open Idealize.ShloMosaic Idealize.ShloMosaic.ValueIdx

/-- An `m × n` array of extended reals. -/
abbrev Mat (m n : Nat) : Type := FVec Ideal ⟨2, ![m, n]⟩ .f32

/-- A length-`n` array of extended reals. -/
abbrev Row (n : Nat) : Type := FVec Ideal ⟨1, ![n]⟩ .f32

/-- The zero the clamp compares with, kept as the bit pattern both programs spell it with. -/
abbrev zeroWord : EReal := Ideal.ofBits .f32 0x00000000#32

/-- Rows by columns: entry `(a, b)` is `Σ k, A (a, k) · B (k, b)`. -/
def prod {m k n : Nat} (A : Mat m k) (B : Mat k n) : Mat m n :=
  fun i => ∑ c : Fin k, A (ix2 (i 0) c) * B (ix2 c (i 1))

theorem prod_apply {m k n : Nat} (A : Mat m k) (B : Mat k n) (a : Fin m) (b : Fin n) :
    prod A B (ix2 a b) = ∑ c : Fin k, A (ix2 a c) * B (ix2 c b) := rfl

/-- Add the one-row matrix `b` to every row of `S`, then clamp below at zero. -/
def biasRelu {m n : Nat} (S : Mat m n) (b : Mat 1 n) : Mat m n :=
  fun i => max (S i + b (ix2 0 (i 1))) zeroWord

theorem biasRelu_apply {m n : Nat} (S : Mat m n) (b : Mat 1 n) (a : Fin m) (q : Fin n) :
    biasRelu S b (ix2 a q) = max (S (ix2 a q) + b (ix2 0 q)) zeroWord := rfl

/-- A length-`n` array as a one-row matrix. -/
def asRow {n : Nat} (b : Row n) : Mat 1 n := fun i => b (ix1 (i 1))

theorem asRow_apply {n : Nat} (b : Row n) (z : Fin 1) (q : Fin n) : asRow b (ix2 z q) = b (ix1 q) := rfl

/-- The first convolution and the projection: `relu (A · H + b) · W`. -/
def layer1 {m n h h' : Nat} (A : Mat m n) (H : Mat n h) (b : Mat 1 h) (W : Mat h h') : Mat m h' :=
  prod (biasRelu (prod A H) b) W

/-- The second convolution: `relu (A · G + b)`. -/
def layer2 {m n h : Nat} (A : Mat m n) (G : Mat n h) (b : Mat 1 h) : Mat m h :=
  biasRelu (prod A G) b

/-- The whole block, of the six arguments. -/
def gcn {n f h : Nat} (X : Mat n f) (A : Mat n n) (W₁ : Mat f h) (b₁ : Row h) (W₂ : Mat h h) (b₂ : Row h) : Mat n h :=
  layer2 A (layer1 A (prod X W₁) (asRow b₁) W₂) (asRow b₂)

/-! ## Rows -/

/-- Row `a` of `A · B` is row `a'` of `A' · B` when row `a` of `A` is row `a'` of `A'`. -/
theorem prod_rows {m m' k n : Nat} (A : Mat m k) (A' : Mat m' k) (B : Mat k n) (a : Fin m) (a' : Fin m')
    (hA : ∀ c : Fin k, A (ix2 a c) = A' (ix2 a' c)) (b : Fin n) : prod A B (ix2 a b) = prod A' B (ix2 a' b) := by
  rw [prod_apply, prod_apply]
  exact Finset.sum_congr rfl fun c _ => by rw [hA c]

/-- The same for the bias and the clamp, which act entry by entry. -/
theorem biasRelu_rows {m m' n : Nat} (S : Mat m n) (S' : Mat m' n) (b : Mat 1 n) (a : Fin m) (a' : Fin m')
    (hS : ∀ q : Fin n, S (ix2 a q) = S' (ix2 a' q)) (q : Fin n) : biasRelu S b (ix2 a q) = biasRelu S' b (ix2 a' q) := by
  rw [biasRelu_apply, biasRelu_apply, hS q]

theorem layer1_rows {m m' n h h' : Nat} (A : Mat m n) (A' : Mat m' n) (H : Mat n h) (b : Mat 1 h) (W : Mat h h')
    (a : Fin m) (a' : Fin m') (hA : ∀ c : Fin n, A (ix2 a c) = A' (ix2 a' c)) (q : Fin h') :
    layer1 A H b W (ix2 a q) = layer1 A' H b W (ix2 a' q) :=
  prod_rows _ _ W a a' (biasRelu_rows _ _ b a a' (prod_rows A A' H a a' hA)) q

theorem layer2_rows {m m' n h : Nat} (A : Mat m n) (A' : Mat m' n) (G : Mat n h) (b : Mat 1 h)
    (a : Fin m) (a' : Fin m') (hA : ∀ c : Fin n, A (ix2 a c) = A' (ix2 a' c)) (q : Fin h) :
    layer2 A G b (ix2 a q) = layer2 A' G b (ix2 a' q) :=
  biasRelu_rows _ _ b a a' (prod_rows A A' G a a' hA) q

end Cert.Gcn

end
-- ==== Proof.LibDot.lean ====
/-
  Matrix products with ONE contracted axis and no batch axis, read at an entry at the ideal values, for any dimension
  numbers record whose axis lists are the stated ones (a printed record satisfies each hypothesis by `rfl`).

  With the accumulator the zero constant, the product at entry (a, b) is the sum over the contracted coordinate `c` of
  the left operand's entry times the right operand's entry; which coordinate of each operand `c` runs over is what the
  three forms below differ in: rows by columns (`_10`), the left operand transposed against a right operand contracted
  on its last axis (`_01`), and both operands contracted on their first axis (`_00`).
  Also: a non-contracting axis of either operand reads the output index, and the bf16 zero pattern is the real zero.
-/
import Idealize.ShloMosaic.Lib.ValueIdx
import Idealize.ShloMosaic.PureOps.Ideal.Laws

noncomputable section

open scoped BigOperators

namespace Cert.LibDot

open Idealize.ShloMosaic Idealize.ShloMosaic.ValueIdx

/-- The bf16 pattern of all zero bits is the number zero. -/
theorem ofBits_zero_bf16 : Ideal.ofBits .bf16 0x0000#16 = 0 := by simp [Ideal.ofBits, Ideal.ieee]

section Axes
variable {sl sr so : Shape} (d : DotDims sl sr so)

/-- With no batch axis and one non-contracting axis on the left, that axis of the left operand reads the output's
    first coordinate. -/
theorem lhsIdx_val_non {nl : Fin sl.rank} (hb : d.lhsBatch = []) (hn : d.lhsNonContracting = [nl]) (j : so.Idx)
    (k : d.contr.Idx) (h0 : 0 < so.rank) : (d.lhsIdx j k nl).val = (j ⟨0, h0⟩).val := by
  have hnb : nl ∉ d.lhsBatch := by rw [hb]; exact List.not_mem_nil
  have hmem : nl ∈ d.lhsNonContracting := by rw [hn]; exact List.mem_singleton.mpr rfl
  unfold DotDims.lhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hb, hn])

/-- With no batch axis and one non-contracting axis on each side, the right operand's non-contracting axis reads the
    output's second coordinate. -/
theorem rhsIdx_val_non {nl : Fin sl.rank} {nr : Fin sr.rank} (hlb : d.lhsBatch = []) (hrb : d.rhsBatch = [])
    (hln : d.lhsNonContracting = [nl]) (hn : d.rhsNonContracting = [nr]) (j : so.Idx)
    (k : d.contr.Idx) (h1 : 1 < so.rank) : (d.rhsIdx j k nr).val = (j ⟨1, h1⟩).val := by
  have hnb : nr ∉ d.rhsBatch := by rw [hrb]; exact List.not_mem_nil
  have hmem : nr ∈ d.rhsNonContracting := by rw [hn]; exact List.mem_singleton.mpr rfl
  unfold DotDims.rhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hlb, hln, hn])

end Axes

/-- Rows by columns: an `M × K` by a `K × N` operand, the left contracted on its last axis and the right on its
    first. -/
theorem matmul_10_zero_apply {M K N : Nat} {φ₁ φ₂ : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (A : FVec Ideal ⟨2, ![M, K]⟩ φ₁) (B : FVec Ideal ⟨2, ![K, N]⟩ φ₂)
    (a : Fin M) (b : Fin N) :
    matmul (F := Ideal) d prec A B (constant ⟨2, ![M, N]⟩ .f32 0x00000000#32) (ix2 a b)
      = ∑ c : Fin K, A (ix2 a c) * B (ix2 c b) := by
  have hr : d.contr.rank = 1 := by rw [d.rank_contr, hlc]; rfl
  have hs : d.contr.size ⟨0, by omega⟩ = K := by
    rw [d.size_contr 0 (by rw [hlc]; exact Nat.one_pos)]; simp [hlc]
  show FloatOps.matmul _ prec A B _ (ix2 a b) = _
  rw [Ideal.matmul_constant_zero_apply, ← Equiv.sum_comp (contrEquiv1 d K hr hs).symm]
  refine Finset.sum_congr rfl fun c _ => ?_
  have c2 := contrEquiv1_symm_val d K hr hs c
  have l0 := lhsIdx_val_non d hlb hln (ix2 a b) ((contrEquiv1 d K hr hs).symm c) Nat.zero_lt_two
  have l1 := (d.lhsIdx_val_of_single hlc (ix2 a b) ((contrEquiv1 d K hr hs).symm c)).trans c2
  have r0 := (d.rhsIdx_val_of_single hrc (ix2 a b) ((contrEquiv1 d K hr hs).symm c)).trans c2
  have r1 := rhsIdx_val_non d hlb hrb hln hrn (ix2 a b) ((contrEquiv1 d K hr hs).symm c) Nat.one_lt_two
  have l2 : d.lhsIdx (ix2 a b) ((contrEquiv1 d K hr hs).symm c) = ix2 a c := by
    funext ax; apply Fin.ext
    match ax with
    | ⟨0, _⟩ => exact l0
    | ⟨1, _⟩ => exact l1
  have r2 : d.rhsIdx (ix2 a b) ((contrEquiv1 d K hr hs).symm c) = ix2 c b := by
    funext ax; apply Fin.ext
    match ax with
    | ⟨0, _⟩ => exact r0
    | ⟨1, _⟩ => exact r1
  rw [l2, r2]

/-- A `K × M` left operand contracted on its first axis against an `N × K` right operand contracted on its last. -/
theorem matmul_01_zero_apply {M K N : Nat} {φ₁ φ₂ : FTy} (d : DotDims ⟨2, ![K, M]⟩ ⟨2, ![N, K]⟩ ⟨2, ![M, N]⟩)
    (hlc : d.lhsContracting = [0]) (hrc : d.rhsContracting = [1]) (hln : d.lhsNonContracting = [1])
    (hrn : d.rhsNonContracting = [0]) (hlb : d.lhsBatch = []) (hrb : d.rhsBatch = [])
    (prec : Option ContractPrecision) (A : FVec Ideal ⟨2, ![K, M]⟩ φ₁) (B : FVec Ideal ⟨2, ![N, K]⟩ φ₂)
    (a : Fin M) (b : Fin N) :
    matmul (F := Ideal) d prec A B (constant ⟨2, ![M, N]⟩ .f32 0x00000000#32) (ix2 a b)
      = ∑ c : Fin K, A (ix2 c a) * B (ix2 b c) := by
  have hr : d.contr.rank = 1 := by rw [d.rank_contr, hlc]; rfl
  have hs : d.contr.size ⟨0, by omega⟩ = K := by
    rw [d.size_contr 0 (by rw [hlc]; exact Nat.one_pos)]; simp [hlc]
  show FloatOps.matmul _ prec A B _ (ix2 a b) = _
  rw [Ideal.matmul_constant_zero_apply, ← Equiv.sum_comp (contrEquiv1 d K hr hs).symm]
  refine Finset.sum_congr rfl fun c _ => ?_
  have c2 := contrEquiv1_symm_val d K hr hs c
  have l1 := lhsIdx_val_non d hlb hln (ix2 a b) ((contrEquiv1 d K hr hs).symm c) Nat.zero_lt_two
  have l0 := (d.lhsIdx_val_of_single hlc (ix2 a b) ((contrEquiv1 d K hr hs).symm c)).trans c2
  have r1 := (d.rhsIdx_val_of_single hrc (ix2 a b) ((contrEquiv1 d K hr hs).symm c)).trans c2
  have r0 := rhsIdx_val_non d hlb hrb hln hrn (ix2 a b) ((contrEquiv1 d K hr hs).symm c) Nat.one_lt_two
  have l2 : d.lhsIdx (ix2 a b) ((contrEquiv1 d K hr hs).symm c) = ix2 c a := by
    funext ax; apply Fin.ext
    match ax with
    | ⟨0, _⟩ => exact l0
    | ⟨1, _⟩ => exact l1
  have r2 : d.rhsIdx (ix2 a b) ((contrEquiv1 d K hr hs).symm c) = ix2 b c := by
    funext ax; apply Fin.ext
    match ax with
    | ⟨0, _⟩ => exact r0
    | ⟨1, _⟩ => exact r1
  rw [l2, r2]

/-- Both operands contracted on their first axis: a `K × M` by a `K × N` operand. -/
theorem matmul_00_zero_apply {M K N : Nat} {φ₁ φ₂ : FTy} (d : DotDims ⟨2, ![K, M]⟩ ⟨2, ![K, N]⟩ ⟨2, ![M, N]⟩)
    (hlc : d.lhsContracting = [0]) (hrc : d.rhsContracting = [0]) (hln : d.lhsNonContracting = [1])
    (hrn : d.rhsNonContracting = [1]) (hlb : d.lhsBatch = []) (hrb : d.rhsBatch = [])
    (prec : Option ContractPrecision) (A : FVec Ideal ⟨2, ![K, M]⟩ φ₁) (B : FVec Ideal ⟨2, ![K, N]⟩ φ₂)
    (a : Fin M) (b : Fin N) :
    matmul (F := Ideal) d prec A B (constant ⟨2, ![M, N]⟩ .f32 0x00000000#32) (ix2 a b)
      = ∑ c : Fin K, A (ix2 c a) * B (ix2 c b) := by
  have hr : d.contr.rank = 1 := by rw [d.rank_contr, hlc]; rfl
  have hs : d.contr.size ⟨0, by omega⟩ = K := by
    rw [d.size_contr 0 (by rw [hlc]; exact Nat.one_pos)]; simp [hlc]
  show FloatOps.matmul _ prec A B _ (ix2 a b) = _
  rw [Ideal.matmul_constant_zero_apply, ← Equiv.sum_comp (contrEquiv1 d K hr hs).symm]
  refine Finset.sum_congr rfl fun c _ => ?_
  have c2 := contrEquiv1_symm_val d K hr hs c
  have l1 := lhsIdx_val_non d hlb hln (ix2 a b) ((contrEquiv1 d K hr hs).symm c) Nat.zero_lt_two
  have l0 := (d.lhsIdx_val_of_single hlc (ix2 a b) ((contrEquiv1 d K hr hs).symm c)).trans c2
  have r0 := (d.rhsIdx_val_of_single hrc (ix2 a b) ((contrEquiv1 d K hr hs).symm c)).trans c2
  have r1 := rhsIdx_val_non d hlb hrb hln hrn (ix2 a b) ((contrEquiv1 d K hr hs).symm c) Nat.one_lt_two
  have l2 : d.lhsIdx (ix2 a b) ((contrEquiv1 d K hr hs).symm c) = ix2 c a := by
    funext ax; apply Fin.ext
    match ax with
    | ⟨0, _⟩ => exact l0
    | ⟨1, _⟩ => exact l1
  have r2 : d.rhsIdx (ix2 a b) ((contrEquiv1 d K hr hs).symm c) = ix2 c b := by
    funext ax; apply Fin.ext
    match ax with
    | ⟨0, _⟩ => exact r0
    | ⟨1, _⟩ => exact r1
  rw [l2, r2]

end Cert.LibDot

end
-- ==== Proof.KernelBody.lean ====
/-
  What each of the three kernel bodies computes from the blocks it loads, at the ideal values.

  The first body multiplies the feature block by the first weight matrix: `prod`.
  The second multiplies a block of rows of the adjacency by the whole of the first product, adds the bias row to every
  row, clamps below at zero and multiplies by the second weight matrix: `layer1`.
  The third multiplies a block of rows of the adjacency by the whole of the second body's result, adds the other bias
  row and clamps: `layer2`.
  Each matrix unit product starts from the zero accumulator, so it is the plain sum over the contracted coordinate; a
  shape cast to the same shape is the identity; the one-row bias broadcast over the rows reads its one row.
-/
import proofs.«101630_g83193516523963_cont_9to1_m_102_2_alg».proof.Proof.Gen.KernelIdeal.Skeleton
import proofs.«101630_g83193516523963_cont_9to1_m_102_2_alg».proof.Proof.Spec
import proofs.«101630_g83193516523963_cont_9to1_m_102_2_alg».proof.Proof.LibDot
import Idealize.ShloMosaic.Lib.Pipeline.Value
import Idealize.ShloMosaic.Lib.ValueLayout

noncomputable section

open scoped BigOperators

namespace Cert.KernelIdeal.Body

open Cert.KernelIdeal Cert.KernelIdeal.Gen Cert.Gcn Idealize.ShloMosaic Idealize.ShloMosaic.ValueIdx

/-- The features times the first weights. -/
theorem pay0_eq (x : FVec Ideal S10000x128 .f32) (w : FVec Ideal S128x32 .f32) :
    k0_pay1 (F := Ideal) x w = prod x w := by
  funext j
  obtain ⟨a, b, rfl⟩ : ∃ (a : Fin 10000) (b : Fin 32), j = ix2 a b := ⟨j 0, j 1, eq_ix2 j⟩
  unfold k0_pay1
  exact Cert.LibDot.matmul_10_zero_apply dot_S10000x128_S128x32_S10000x32_1_0_0_1_n_n rfl rfl rfl rfl rfl rfl none x w a b

/-- A block of adjacency rows times the whole right factor, read at an entry. -/
theorem rows_prod (A : FVec Ideal S80x10000 .f32) (H : FVec Ideal S10000x32 .f32) (p : Fin 80) (c : Fin 32) :
    matmul (F := Ideal) dot_S80x10000_S10000x32_S80x32_1_0_0_1_n_n none A (shapeCast S10000x32 H shapeCasts_S10000x32_S10000x32)
        (constant S80x32 .f32 0x00000000#32) (ix2 p c) = prod A H (ix2 p c) := by
  rw [shapeCast_self]
  exact Cert.LibDot.matmul_10_zero_apply dot_S80x10000_S10000x32_S80x32_1_0_0_1_n_n rfl rfl rfl rfl rfl rfl none A H p c

/-- The bias row broadcast over the block's rows, read at an entry. -/
theorem bias_bcast (b : FVec Ideal S1x32 .f32) (p : Fin 80) (c : Fin 32) :
    broadcastTo S80x32 (shapeCast S1x32 b shapeCasts_S1x32_S1x32) broadcasts_S1x32_S80x32 (ix2 p c) = b (ix2 (0 : Fin 1) c) := by
  rw [shapeCast_self]
  exact broadcastTo_1b_ab_apply b broadcasts_S1x32_S80x32 p c

/-- The first convolution and the projection, on a block of adjacency rows. -/
theorem pay1_eq (A : FVec Ideal S80x10000 .f32) (H : FVec Ideal S10000x32 .f32) (b : FVec Ideal S1x32 .f32)
    (W : FVec Ideal S32x32 .f32) : k1_pay1 (F := Ideal) A H b W = layer1 A H b W := by
  funext j
  obtain ⟨p, q, rfl⟩ : ∃ (p : Fin 80) (q : Fin 32), j = ix2 p q := ⟨j 0, j 1, eq_ix2 j⟩
  unfold k1_pay1
  refine (Cert.LibDot.matmul_10_zero_apply dot_S80x32_S32x32_S80x32_1_0_0_1_n_n rfl rfl rfl rfl rfl rfl none _ W p q).trans ?_
  unfold layer1
  rw [prod_apply]
  refine Finset.sum_congr rfl fun c _ => congrArg (· * W (ix2 c q)) ?_
  rw [maximumf_apply, addf_apply, biasRelu_apply, rows_prod, bias_bcast]
  rfl

/-- The second convolution, on a block of adjacency rows. -/
theorem pay2_eq (A : FVec Ideal S80x10000 .f32) (G : FVec Ideal S10000x32 .f32) (b : FVec Ideal S1x32 .f32) :
    k2_pay1 (F := Ideal) A G b = layer2 A G b := by
  funext j
  obtain ⟨p, q, rfl⟩ : ∃ (p : Fin 80) (q : Fin 32), j = ix2 p q := ⟨j 0, j 1, eq_ix2 j⟩
  unfold k2_pay1 layer2
  rw [maximumf_apply, addf_apply, biasRelu_apply, rows_prod, bias_bcast]
  rfl

end Cert.KernelIdeal.Body

end
-- ==== Proof.KernelRegions.lean ====
/-
  What each kernel region leaves in its output array, as a function of the arrays it finds when it is entered.

  A region runs its body once per grid point on the blocks the point's index maps select, and writes the output block
  back. For each region: each input block is the part of its array the index map names; what the body computes from
  the blocks is one of the functions of `Spec` (module `KernelBody`); so what a point writes back is the point's
  block of ONE whole-array function of the arrays, and since the blocks written back cover the output array, the array
  ends holding that function.
-/
import proofs.«101630_g83193516523963_cont_9to1_m_102_2_alg».proof.Proof.Gen.KernelIdeal.Frame
import proofs.«101630_g83193516523963_cont_9to1_m_102_2_alg».proof.Proof.KernelBody

-- membership in a rectangle of production extents (`View.cover_of_tiled`): the elaborator's structural look
-- recurses once per coordinate of the long axes
set_option maxRecDepth 16384

noncomputable section

namespace Cert.KernelIdeal.KValue

open Cert.KernelIdeal Cert.KernelIdeal.Gen Cert.KernelIdeal.Body Cert.Gcn Idealize.ShloMosaic.ValueIdx

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

-- the buffer contents when a region is entered: every region's statement is at this parameter
variable (V : (c : Dev nD) → (b : Ref sig .tc) → Buf (Elt Ideal) ((c : Thread nD τ).loc b))

theorem hz : (![0, 0] : Fin 2 → Nat) = fun _ => 0 := funext fun a => by fin_cases a <;> rfl

/-! ## Region 0: the features times the first weights, in one point

Every window of this region is its whole array, so the one point's blocks are the arrays themselves and what it
writes back is the whole product. -/

abbrev x0blk (c : Dev nD) (t : Fin cfg0.N) : FVec Ideal S10000x128 .f32 := iblk0 V c 0 t
abbrev w0blk (c : Dev nD) (t : Fin cfg0.N) : FVec Ideal S128x32 .f32 := iblk0 V c 1 t

/-- Every block index of region 0 is zero. -/
theorem idx0 : ∀ t : Fin cfg0.N, win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0 :=
  (by decide +kernel : ∀ t : Fin grid0.N, _)

theorem x0blk_eq (c : Dev nD) (t : Fin cfg0.N) : x0blk V c t = V c main_arg0 := by
  obtain ⟨e0, e1, -, -, -, -⟩ := idx0 t
  funext y
  show V c main_arg0 (((cfg0.win 0).blk t).view.emb y) = V c main_arg0 y
  refine congrArg _ (funext fun a => Fin.ext ?_)
  match a with
  | ⟨0, _⟩ => show win0_0.index t (0 : Fin 2) * 10000 + 1 * (y 0).val = (y 0).val; omega
  | ⟨1, _⟩ => show win0_0.index t (1 : Fin 2) * 128 + 1 * (y 1).val = (y 1).val; omega

theorem w0blk_eq (c : Dev nD) (t : Fin cfg0.N) : w0blk V c t = V c main_arg2 := by
  obtain ⟨-, -, e0, e1, -, -⟩ := idx0 t
  funext y
  show V c main_arg2 (((cfg0.win 1).blk t).view.emb y) = V c main_arg2 y
  refine congrArg _ (funext fun a => Fin.ext ?_)
  match a with
  | ⟨0, _⟩ => show win0_1.index t (0 : Fin 2) * 128 + 1 * (y 0).val = (y 0).val; omega
  | ⟨1, _⟩ => show win0_1.index t (1 : Fin 2) * 32 + 1 * (y 1).val = (y 1).val; omega

/-- The output block of region 0 sits in its array where it is. -/
theorem o0emb (t : Fin cfg0.N) (y : S10000x32.Idx) : ((cfg0.win 2).blk t).view.emb y = y := by
  obtain ⟨-, -, -, -, e0, e1⟩ := idx0 t
  refine funext fun a => Fin.ext ?_
  match a with
  | ⟨0, _⟩ => show win0_2.index t (0 : Fin 2) * 10000 + 1 * (y 0).val = (y 0).val; omega
  | ⟨1, _⟩ => show win0_2.index t (1 : Fin 2) * 32 + 1 * (y 1).val = (y 1).val; omega

/-- What region 0's point writes back is the whole product. -/
theorem flushed0 (c : Dev nD) (t : Fin cfg0.N) :
    (dat0 V c).flushed 2 t = ((cfg0.win 2).blk t).view.read (Elt Ideal) (prod (V c main_arg0) (V c main_arg2)) := by
  show (cfg0.win 2).cut (grid0.coords t) ((dat0 V c).after 2 t) = _
  rw [after0_2]
  unfold out0_2
  rw [View.canon_unit_zero hz]
  simp only [View.ld_unit_zero (S := S10000x128) hz, View.ld_unit_zero (S := S128x32) hz]
  rw [pay0_eq (x0blk V c t) (w0blk V c t), x0blk_eq, w0blk_eq]
  refine funext fun (y : S10000x32.Idx) => ?_
  show prod (V c main_arg0) (V c main_arg2) y = prod (V c main_arg0) (V c main_arg2) (((cfg0.win 2).blk t).view.emb y)
  rw [o0emb]

theorem mem_blk0 (t : Fin cfg0.N) (i : S10000x32.Idx) :
    i ∈ ((cfg0.win 2).blk t).view.set ↔ ∀ a : Fin 2, win0_2.index t a * S10000x32.size a ≤ (i a).val ∧ (i a).val < win0_2.index t a * S10000x32.size a + S10000x32.size a := by
  show i ∈ ((View.whole main_v0).slice (win0_2.rect t)).set ↔ _
  rw [View.set_slice_whole, Rect.mem_set_unit]
  exact Iff.rfl

/-- After region 0 its output array holds the product of the two arrays it found. -/
theorem final0 (c : Dev nD) : (dat0 V c).arrAt 2 cfg0.N = prod (V c main_arg0) (V c main_arg2) := by
  refine (dat0 V c).arrAt_eq_of_cover 2 _ (fun t _ => flushed0 V c t) fun i => ?_
  have hN : 0 < cfg0.N := by decide
  refine ⟨⟨0, hN⟩, flush0_2 _, ?_⟩
  obtain ⟨-, -, -, -, e0, e1⟩ := idx0 ⟨0, hN⟩
  rw [mem_blk0]
  intro a
  have hi0 : (i 0).val < 10000 := (i 0).isLt
  have hi1 : (i 1).val < 32 := (i 1).isLt
  match a with
  | ⟨0, _⟩ => show win0_2.index ⟨0, hN⟩ (0 : Fin 2) * 10000 ≤ (i 0).val ∧ (i 0).val < win0_2.index ⟨0, hN⟩ (0 : Fin 2) * 10000 + 10000; omega
  | ⟨1, _⟩ => show win0_2.index ⟨0, hN⟩ (1 : Fin 2) * 32 ≤ (i 1).val ∧ (i 1).val < win0_2.index ⟨0, hN⟩ (1 : Fin 2) * 32 + 32; omega

/-! ## Region 1: the first convolution and the projection, 125 points of 80 rows each

Point `t` loads rows `80 t … 80 t + 79` of the adjacency and the other operands whole, and writes back rows
`80 t … 80 t + 79` of the result. A row of the result depends on the adjacency only through the same row, so the block
written back is the block of the whole-array result. -/

abbrev a1blk (c : Dev nD) (t : Fin cfg1.N) : FVec Ideal S80x10000 .f32 := iblk1 V c 0 t
abbrev h1blk (c : Dev nD) (t : Fin cfg1.N) : FVec Ideal S10000x32 .f32 := iblk1 V c 1 t
abbrev b1blk (c : Dev nD) (t : Fin cfg1.N) : FVec Ideal S1x32 .f32 := iblk1 V c 2 t
abbrev w1blk (c : Dev nD) (t : Fin cfg1.N) : FVec Ideal S32x32 .f32 := iblk1 V c 3 t

/-- The block indices of region 1: the adjacency's and the output's row block is the point's number, every other
    index is zero. -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

theorem h1blk_eq (c : Dev nD) (t : Fin cfg1.N) : h1blk V c t = V c main_v0 := by
  obtain ⟨-, -, e0, e1, -, -, -, -, -, -⟩ := idx1 t
  funext y
  show V c main_v0 (((cfg1.win 1).blk t).view.emb y) = V c main_v0 y
  refine congrArg _ (funext fun a => Fin.ext ?_)
  match a with
  | ⟨0, _⟩ => show win1_1.index t (0 : Fin 2) * 10000 + 1 * (y 0).val = (y 0).val; omega
  | ⟨1, _⟩ => show win1_1.index t (1 : Fin 2) * 32 + 1 * (y 1).val = (y 1).val; omega

theorem b1blk_eq (c : Dev nD) (t : Fin cfg1.N) : b1blk V c t = V c main_v1 := by
  obtain ⟨-, -, -, -, e0, e1, -, -, -, -⟩ := idx1 t
  funext y
  show V c main_v1 (((cfg1.win 2).blk t).view.emb y) = V c main_v1 y
  refine congrArg _ (funext fun a => Fin.ext ?_)
  match a with
  | ⟨0, _⟩ => show win1_2.index t (0 : Fin 2) * 1 + 1 * (y 0).val = (y 0).val; omega
  | ⟨1, _⟩ => show win1_2.index t (1 : Fin 2) * 32 + 1 * (y 1).val = (y 1).val; omega

theorem w1blk_eq (c : Dev nD) (t : Fin cfg1.N) : w1blk V c t = V c main_arg4 := by
  obtain ⟨-, -, -, -, -, -, e0, e1, -, -⟩ := idx1 t
  funext y
  show V c main_arg4 (((cfg1.win 3).blk t).view.emb y) = V c main_arg4 y
  refine congrArg _ (funext fun a => Fin.ext ?_)
  match a with
  | ⟨0, _⟩ => show win1_3.index t (0 : Fin 2) * 32 + 1 * (y 0).val = (y 0).val; omega
  | ⟨1, _⟩ => show win1_3.index t (1 : Fin 2) * 32 + 1 * (y 1).val = (y 1).val; omega

/-- Row `p` of the adjacency block at point `t` is row `80 t + p` of the adjacency. -/
theorem a1blk_apply (c : Dev nD) (t : Fin cfg1.N) (p : Fin 80) (k : Fin 10000) (r : Fin 10000)
    (hr : r.val = 80 * t.val + p.val) : a1blk V c t (ix2 p k) = V c main_arg1 (ix2 r k) := by
  obtain ⟨e0, e1, -, -, -, -, -, -, -, -⟩ := idx1 t
  show V c main_arg1 (((cfg1.win 0).blk t).view.emb (ix2 p k)) = V c main_arg1 (ix2 r k)
  refine congrArg _ (funext fun a => Fin.ext ?_)
  match a with
  | ⟨0, _⟩ => show win1_0.index t (0 : Fin 2) * 80 + 1 * p.val = r.val; omega
  | ⟨1, _⟩ => show win1_0.index t (1 : Fin 2) * 10000 + 1 * k.val = k.val; omega

/-- Entry `(p, q)` of the output block at point `t` is entry `(80 t + p, q)` of the output array. -/
theorem o1emb (t : Fin cfg1.N) (p : Fin 80) (q : Fin 32) (r : Fin 10000) (hr : r.val = 80 * t.val + p.val) :
    ((cfg1.win 4).blk t).view.emb (ix2 p q) = ix2 r q := by
  obtain ⟨-, -, -, -, -, -, -, -, e0, e1⟩ := idx1 t
  refine funext fun a => Fin.ext ?_
  match a with
  | ⟨0, _⟩ => show win1_4.index t (0 : Fin 2) * 80 + 1 * p.val = r.val; omega
  | ⟨1, _⟩ => show win1_4.index t (1 : Fin 2) * 32 + 1 * q.val = q.val; omega

/-- What point `t` of region 1 writes back is its block of rows of the whole-array result. -/
theorem flushed1 (c : Dev nD) (t : Fin cfg1.N) :
    (dat1 V c).flushed 4 t = ((cfg1.win 4).blk t).view.read (Elt Ideal) (layer1 (V c main_arg1) (V c main_v0) (V c main_v1) (V c main_arg4)) := by
  show (cfg1.win 4).cut (grid1.coords t) ((dat1 V c).after 4 t) = _
  rw [after1_4]
  unfold out1_4
  rw [View.canon_unit_zero hz]
  simp only [View.ld_unit_zero (S := S80x10000) hz, View.ld_unit_zero (S := S10000x32) hz, View.ld_unit_zero (S := S1x32) hz, View.ld_unit_zero (S := S32x32) hz]
  rw [pay1_eq (a1blk V c t) (h1blk V c t) (b1blk V c t) (w1blk V c t), h1blk_eq, b1blk_eq, w1blk_eq]
  refine funext fun (y : S80x32.Idx) => ?_
  obtain ⟨p, q, rfl⟩ : ∃ (p : Fin 80) (q : Fin 32), y = ix2 p q := ⟨y 0, y 1, eq_ix2 y⟩
  have ht : t.val < 125 := t.isLt
  have hp : p.val < 80 := p.isLt
  have hr : (⟨80 * t.val + p.val, by omega⟩ : Fin 10000).val = 80 * t.val + p.val := rfl
  show layer1 (a1blk V c t) (V c main_v0) (V c main_v1) (V c main_arg4) (ix2 p q)
    = layer1 (V c main_arg1) (V c main_v0) (V c main_v1) (V c main_arg4) (((cfg1.win 4).blk t).view.emb (ix2 p q))
  rw [o1emb t p q _ hr]
  exact layer1_rows (a1blk V c t) (V c main_arg1) (V c main_v0) (V c main_v1) (V c main_arg4) p _ (fun k => a1blk_apply V c t p k _ hr) q

theorem mem_blk1 (t : Fin cfg1.N) (i : S10000x32.Idx) :
    i ∈ ((cfg1.win 4).blk t).view.set ↔ ∀ a : Fin 2, win1_4.index t a * S80x32.size a ≤ (i a).val ∧ (i a).val < win1_4.index t a * S80x32.size a + S80x32.size a := by
  show i ∈ ((View.whole main_v2).slice (win1_4.rect t)).set ↔ _
  rw [View.set_slice_whole, Rect.mem_set_unit]
  exact Iff.rfl

/-- After region 1 its output array holds the whole-array result of the arrays it found: row `r` is written by
    point `r / 80`. -/
theorem final1 (c : Dev nD) : (dat1 V c).arrAt 4 cfg1.N = layer1 (V c main_arg1) (V c main_v0) (V c main_v1) (V c main_arg4) := by
  refine (dat1 V c).arrAt_eq_of_cover 4 _ (fun t _ => flushed1 V c t) fun i => ?_
  have hi0 : (i 0).val < 10000 := (i 0).isLt
  have hi1 : (i 1).val < 32 := (i 1).isLt
  have hN : (i 0).val / 80 < cfg1.N := by show (i 0).val / 80 < 125; omega
  refine ⟨⟨(i 0).val / 80, hN⟩, flush1_4 _, ?_⟩
  obtain ⟨-, -, -, -, -, -, -, -, e0, e1⟩ := idx1 ⟨(i 0).val / 80, hN⟩
  have e0' : win1_4.index ⟨(i 0).val / 80, hN⟩ (0 : Fin 2) = (i 0).val / 80 := e0
  rw [mem_blk1]
  intro a
  match a with
  | ⟨0, _⟩ => show win1_4.index ⟨(i 0).val / 80, hN⟩ (0 : Fin 2) * 80 ≤ (i 0).val ∧ (i 0).val < win1_4.index ⟨(i 0).val / 80, hN⟩ (0 : Fin 2) * 80 + 80; omega
  | ⟨1, _⟩ => show win1_4.index ⟨(i 0).val / 80, hN⟩ (1 : Fin 2) * 32 ≤ (i 1).val ∧ (i 1).val < win1_4.index ⟨(i 0).val / 80, hN⟩ (1 : Fin 2) * 32 + 32; omega

/-! ## Region 2: the second convolution, 125 points of 80 rows each

Point `t` loads rows `80 t … 80 t + 79` of the adjacency and the other operands whole, and writes back rows
`80 t … 80 t + 79` of the result. A row of the result depends on the adjacency only through the same row, so the block
written back is the block of the whole-array result. -/

abbrev a2blk (c : Dev nD) (t : Fin cfg2.N) : FVec Ideal S80x10000 .f32 := iblk2 V c 0 t
abbrev h2blk (c : Dev nD) (t : Fin cfg2.N) : FVec Ideal S10000x32 .f32 := iblk2 V c 1 t
abbrev b2blk (c : Dev nD) (t : Fin cfg2.N) : FVec Ideal S1x32 .f32 := iblk2 V c 2 t

/-- The block indices of region 2: the adjacency's and the output's row block is the point's number, every other
    index is zero. -/
theorem idx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

theorem h2blk_eq (c : Dev nD) (t : Fin cfg2.N) : h2blk V c t = V c main_v2 := by
  obtain ⟨-, -, e0, e1, -, -, -, -, -, -⟩ := idx2 t
  funext y
  show V c main_v2 (((cfg2.win 1).blk t).view.emb y) = V c main_v2 y
  refine congrArg _ (funext fun a => Fin.ext ?_)
  match a with
  | ⟨0, _⟩ => show win2_1.index t (0 : Fin 2) * 10000 + 1 * (y 0).val = (y 0).val; omega
  | ⟨1, _⟩ => show win2_1.index t (1 : Fin 2) * 32 + 1 * (y 1).val = (y 1).val; omega

theorem b2blk_eq (c : Dev nD) (t : Fin cfg2.N) : b2blk V c t = V c main_v3 := by
  obtain ⟨-, -, -, -, e0, e1, -, -, -, -⟩ := idx2 t
  funext y
  show V c main_v3 (((cfg2.win 2).blk t).view.emb y) = V c main_v3 y
  refine congrArg _ (funext fun a => Fin.ext ?_)
  match a with
  | ⟨0, _⟩ => show win2_2.index t (0 : Fin 2) * 1 + 1 * (y 0).val = (y 0).val; omega
  | ⟨1, _⟩ => show win2_2.index t (1 : Fin 2) * 32 + 1 * (y 1).val = (y 1).val; omega

/-- Row `p` of the adjacency block at point `t` is row `80 t + p` of the adjacency. -/
theorem a2blk_apply (c : Dev nD) (t : Fin cfg2.N) (p : Fin 80) (k : Fin 10000) (r : Fin 10000)
    (hr : r.val = 80 * t.val + p.val) : a2blk V c t (ix2 p k) = V c main_arg1 (ix2 r k) := by
  obtain ⟨e0, e1, -, -, -, -, -, -, -, -⟩ := idx2 t
  show V c main_arg1 (((cfg2.win 0).blk t).view.emb (ix2 p k)) = V c main_arg1 (ix2 r k)
  refine congrArg _ (funext fun a => Fin.ext ?_)
  match a with
  | ⟨0, _⟩ => show win2_0.index t (0 : Fin 2) * 80 + 1 * p.val = r.val; omega
  | ⟨1, _⟩ => show win2_0.index t (1 : Fin 2) * 10000 + 1 * k.val = k.val; omega

/-- Entry `(p, q)` of the output block at point `t` is entry `(80 t + p, q)` of the output array. -/
theorem o2emb (t : Fin cfg2.N) (p : Fin 80) (q : Fin 32) (r : Fin 10000) (hr : r.val = 80 * t.val + p.val) :
    ((cfg2.win 4).blk t).view.emb (ix2 p q) = ix2 r q := by
  obtain ⟨-, -, -, -, -, -, -, -, e0, e1⟩ := idx2 t
  refine funext fun a => Fin.ext ?_
  match a with
  | ⟨0, _⟩ => show win2_4.index t (0 : Fin 2) * 80 + 1 * p.val = r.val; omega
  | ⟨1, _⟩ => show win2_4.index t (1 : Fin 2) * 32 + 1 * q.val = q.val; omega

/-- What point `t` of region 2 writes back is its block of rows of the whole-array result. -/
theorem flushed2 (c : Dev nD) (t : Fin cfg2.N) :
    (dat2 V c).flushed 4 t = ((cfg2.win 4).blk t).view.read (Elt Ideal) (layer2 (V c main_arg1) (V c main_v2) (V c main_v3)) := by
  show (cfg2.win 4).cut (grid2.coords t) ((dat2 V c).after 4 t) = _
  rw [after2_4]
  unfold out2_4
  rw [View.canon_unit_zero hz]
  simp only [View.ld_unit_zero (S := S80x10000) hz, View.ld_unit_zero (S := S10000x32) hz, View.ld_unit_zero (S := S1x32) hz]
  rw [pay2_eq (a2blk V c t) (h2blk V c t) (b2blk V c t), h2blk_eq, b2blk_eq]
  refine funext fun (y : S80x32.Idx) => ?_
  obtain ⟨p, q, rfl⟩ : ∃ (p : Fin 80) (q : Fin 32), y = ix2 p q := ⟨y 0, y 1, eq_ix2 y⟩
  have ht : t.val < 125 := t.isLt
  have hp : p.val < 80 := p.isLt
  have hr : (⟨80 * t.val + p.val, by omega⟩ : Fin 10000).val = 80 * t.val + p.val := rfl
  show layer2 (a2blk V c t) (V c main_v2) (V c main_v3) (ix2 p q)
    = layer2 (V c main_arg1) (V c main_v2) (V c main_v3) (((cfg2.win 4).blk t).view.emb (ix2 p q))
  rw [o2emb t p q _ hr]
  exact layer2_rows (a2blk V c t) (V c main_arg1) (V c main_v2) (V c main_v3) p _ (fun k => a2blk_apply V c t p k _ hr) q

theorem mem_blk2 (t : Fin cfg2.N) (i : S10000x32.Idx) :
    i ∈ ((cfg2.win 4).blk t).view.set ↔ ∀ a : Fin 2, win2_4.index t a * S80x32.size a ≤ (i a).val ∧ (i a).val < win2_4.index t a * S80x32.size a + S80x32.size a := by
  show i ∈ ((View.whole main_v4).slice (win2_4.rect t)).set ↔ _
  rw [View.set_slice_whole, Rect.mem_set_unit]
  exact Iff.rfl

/-- After region 2 its output array holds the whole-array result of the arrays it found: row `r` is written by
    point `r / 80`. -/
theorem final2 (c : Dev nD) : (dat2 V c).arrAt 4 cfg2.N = layer2 (V c main_arg1) (V c main_v2) (V c main_v3) := by
  refine (dat2 V c).arrAt_eq_of_cover 4 _ (fun t _ => flushed2 V c t) fun i => ?_
  have hi0 : (i 0).val < 10000 := (i 0).isLt
  have hi1 : (i 1).val < 32 := (i 1).isLt
  have hN : (i 0).val / 80 < cfg2.N := by show (i 0).val / 80 < 125; omega
  refine ⟨⟨(i 0).val / 80, hN⟩, flush2_4 _, ?_⟩
  obtain ⟨-, -, -, -, -, -, -, -, e0, e1⟩ := idx2 ⟨(i 0).val / 80, hN⟩
  have e0' : win2_4.index ⟨(i 0).val / 80, hN⟩ (0 : Fin 2) = (i 0).val / 80 := e0
  rw [mem_blk2]
  intro a
  match a with
  | ⟨0, _⟩ => show win2_4.index ⟨(i 0).val / 80, hN⟩ (0 : Fin 2) * 80 ≤ (i 0).val ∧ (i 0).val < win2_4.index ⟨(i 0).val / 80, hN⟩ (0 : Fin 2) * 80 + 80; omega
  | ⟨1, _⟩ => show win2_4.index ⟨(i 0).val / 80, hN⟩ (1 : Fin 2) * 32 ≤ (i 1).val ∧ (i 1).val < win2_4.index ⟨(i 0).val / 80, hN⟩ (1 : Fin 2) * 32 + 32; omega

end Cert.KernelIdeal.KValue

end
-- ==== Proof.KernelValue.lean ====
/-
  The result array at the end of the program is the two-layer graph convolution of the six arguments.

  The program is: region 0; the first bias reshaped to one row; region 1; the second bias reshaped to one row;
  region 2. The contents of the buffers at each of the six boundaries are a fold from the launch memory: a region
  replaces its output array by what its write-backs leave and keeps everything else, a host operation replaces its one
  result. Walking the fold forward:
    after region 0 its output is X · W₁ (`final0`), every argument as launched;
    the reshape puts the first bias, as a row, in its own buffer and changes nothing else;
    after region 1 its output is `layer1` of the adjacency, X · W₁, that row and W₂ (`final1`);
    the second reshape likewise; after region 2 its output is `layer2` of the adjacency, region 1's output and the
    second row (`final2`): `gcn`.
-/
import proofs.«101630_g83193516523963_cont_9to1_m_102_2_alg».proof.Proof.KernelRegions
import proofs.«101630_g83193516523963_cont_9to1_m_102_2_alg».proof.Proof.KernelRun
import Idealize.ShloMosaic.Lib.StableHlo.Run

-- membership in a rectangle of production extents (`View.cover_of_tiled`): the elaborator's structural look
-- recurses once per coordinate of the long axes
set_option maxRecDepth 16384

noncomputable section

namespace Cert.KernelIdeal.KValue

open Cert.KernelIdeal Cert.KernelIdeal.Gen Cert.KernelIdeal.Body Cert.Gcn Idealize.ShloMosaic.ValueIdx Idealize.ShloMosaic.StableHlo

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-! ## After region 0 -/

theorem V1_v0 (c : Dev nD) : V1 m ρ c main_v0 = prod (m ((c : Thread nD τ).loc main_arg0)) (m ((c : Thread nD τ).loc main_arg2)) :=
  (W1_arr m ρ c 2).trans (final0 (V0 m ρ) c)

theorem V1_arg1 (c : Dev nD) : V1 m ρ c main_arg1 = m ((c : Thread nD τ).loc main_arg1) := W1_of_ne m ρ c main_arg1 (by decide)
theorem V1_arg3 (c : Dev nD) : V1 m ρ c main_arg3 = m ((c : Thread nD τ).loc main_arg3) := W1_of_ne m ρ c main_arg3 (by decide)
theorem V1_arg4 (c : Dev nD) : V1 m ρ c main_arg4 = m ((c : Thread nD τ).loc main_arg4) := W1_of_ne m ρ c main_arg4 (by decide)
theorem V1_arg5 (c : Dev nD) : V1 m ρ c main_arg5 = m ((c : Thread nD τ).loc main_arg5) := W1_of_ne m ρ c main_arg5 (by decide)

/-! ## After the first reshape -/

/-- A length-32 array reshaped to one row is that array as a row. -/
theorem reshape_row (b : FVec Ideal S32 .f32) : shapeCast S1x32 b shapeCasts_S32_S1x32 = asRow b := by
  funext i
  obtain ⟨z, q, rfl⟩ : ∃ (z : Fin 1) (q : Fin 32), i = ix2 z q := ⟨i 0, i 1, eq_ix2 i⟩
  exact shapeCast_a_1a_apply b shapeCasts_S32_S1x32 z q

theorem V2_v0 (c : Dev nD) : V2 m ρ c main_v0 = prod (m ((c : Thread nD τ).loc main_arg0)) (m ((c : Thread nD τ).loc main_arg2)) := by
  show StableHlo.after hostOps1 (W1 m ρ c) (Proc.devRef .tc main_v0) = _
  after_results
  exact V1_v0 m ρ c
theorem V2_arg1 (c : Dev nD) : V2 m ρ c main_arg1 = m ((c : Thread nD τ).loc main_arg1) := by
  show StableHlo.after hostOps1 (W1 m ρ c) (Proc.devRef .tc main_arg1) = _
  after_results
  exact V1_arg1 m ρ c
theorem V2_arg4 (c : Dev nD) : V2 m ρ c main_arg4 = m ((c : Thread nD τ).loc main_arg4) := by
  show StableHlo.after hostOps1 (W1 m ρ c) (Proc.devRef .tc main_arg4) = _
  after_results
  exact V1_arg4 m ρ c
theorem V2_arg5 (c : Dev nD) : V2 m ρ c main_arg5 = m ((c : Thread nD τ).loc main_arg5) := by
  show StableHlo.after hostOps1 (W1 m ρ c) (Proc.devRef .tc main_arg5) = _
  after_results
  exact V1_arg5 m ρ c
theorem V2_v1 (c : Dev nD) : V2 m ρ c main_v1 = asRow (m ((c : Thread nD τ).loc main_arg3)) := by
  show StableHlo.after hostOps1 (W1 m ρ c) (Proc.devRef .tc main_v1) = _
  after_results
  show shapeCast S1x32 (V1 m ρ c main_arg3) shapeCasts_S32_S1x32 = _
  exact (reshape_row _).trans (congrArg asRow (V1_arg3 m ρ c))

/-! ## After region 1 -/

theorem V3_v2 (c : Dev nD) : V3 m ρ c main_v2
    = layer1 (m ((c : Thread nD τ).loc main_arg1)) (prod (m ((c : Thread nD τ).loc main_arg0)) (m ((c : Thread nD τ).loc main_arg2)))
        (asRow (m ((c : Thread nD τ).loc main_arg3))) (m ((c : Thread nD τ).loc main_arg4)) := by
  refine ((W3_arr m ρ c 4).trans (final1 (V2 m ρ) c)).trans ?_
  rw [V2_arg1, V2_v0, V2_v1, V2_arg4]

/-- The adjacency is an input of region 1: the region leaves it as it found it. -/
theorem V3_arg1 (c : Dev nD) : V3 m ρ c main_arg1 = m ((c : Thread nD τ).loc main_arg1) :=
  ((W3_arr m ρ c 0).trans (((dat1 (V2 m ρ) c).arrAt_in 0 rfl _).trans (A_eq1 (V2 m ρ) c 0))).trans (V2_arg1 m ρ c)
theorem V3_arg5 (c : Dev nD) : V3 m ρ c main_arg5 = m ((c : Thread nD τ).loc main_arg5) :=
  (W3_of_ne m ρ c main_arg5 (by decide)).trans (V2_arg5 m ρ c)

/-! ## After the second reshape -/

theorem V4_v2 (c : Dev nD) : V4 m ρ c main_v2
    = layer1 (m ((c : Thread nD τ).loc main_arg1)) (prod (m ((c : Thread nD τ).loc main_arg0)) (m ((c : Thread nD τ).loc main_arg2)))
        (asRow (m ((c : Thread nD τ).loc main_arg3))) (m ((c : Thread nD τ).loc main_arg4)) := by
  show StableHlo.after hostOps2 (W3 m ρ c) (Proc.devRef .tc main_v2) = _
  after_results
  exact V3_v2 m ρ c
theorem V4_arg1 (c : Dev nD) : V4 m ρ c main_arg1 = m ((c : Thread nD τ).loc main_arg1) := by
  show StableHlo.after hostOps2 (W3 m ρ c) (Proc.devRef .tc main_arg1) = _
  after_results
  exact V3_arg1 m ρ c
theorem V4_v3 (c : Dev nD) : V4 m ρ c main_v3 = asRow (m ((c : Thread nD τ).loc main_arg5)) := by
  show StableHlo.after hostOps2 (W3 m ρ c) (Proc.devRef .tc main_v3) = _
  after_results
  show shapeCast S1x32 (V3 m ρ c main_arg5) shapeCasts_S32_S1x32 = _
  exact (reshape_row _).trans (congrArg asRow (V3_arg5 m ρ c))

/-! ## After region 2: the result -/

/-- The result array at the last boundary is the two-layer graph convolution of the six arguments as launched. -/
theorem result (c : Dev nD) : W5 m ρ c (Proc.devRef .tc main_v4)
    = gcn (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  refine ((W5_arr m ρ c 4).trans (final2 (V4 m ρ) c)).trans ?_
  rw [V4_arg1, V4_v2, V4_v3]
  rfl

/-- Every weakly fair execution of the idealized kernel program terminates, nothing faulting, with the result array
    at the two-layer graph convolution of the arguments and the arguments as launched. -/
theorem run : θ_run defs (onTc (τ := τ) (main (F := Ideal))) ⟨m, fun _ => 0, ρ⟩ (fun r => ∀ c : Dev nD,
      r.2.mem ((c.tc : Thread nD τ).loc main_v4)
        = gcn (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (result m ρ c), (h c).2⟩) (Cert.KernelIdeal.Run.run_result m ρ)

end Cert.KernelIdeal.KValue

end
-- ==== Proof.RefValue.lean ====
/-
  The reference's result is the two-layer graph convolution of its six arguments.

  The reference computes the block stage by stage on whole arrays: a product, a product, the bias broadcast to every
  row, a sum, the clamp against a zero array, a product, a product, the second bias, a sum, the clamp. Read at an entry,
  each product is the sum over its contracted coordinate, the two broadcasts of a bias read the bias at the entry's
  column, and the zero array reads the zero word: stage by stage these are `prod`, `biasRelu` over `asRow`, `layer1`
  and `layer2`.
-/
import proofs.«101630_g83193516523963_cont_9to1_m_102_2_alg».proof.Proof.Gen.ReferenceIdeal.Run
import proofs.«101630_g83193516523963_cont_9to1_m_102_2_alg».proof.Proof.Gen.ReferenceIdeal.Read
import proofs.«101630_g83193516523963_cont_9to1_m_102_2_alg».proof.Proof.Spec

noncomputable section

open scoped BigOperators

namespace Cert.ReferenceIdeal.RefValue

open Cert.ReferenceIdeal Cert.ReferenceIdeal.Read Cert.Gcn Idealize.ShloMosaic Idealize.ShloMosaic.ValueIdx

variable (x : FVec Ideal S10000x128 .f32) (a : FVec Ideal S10000x10000 .f32) (w₁ : FVec Ideal S128x32 .f32)
  (b₁ : FVec Ideal S32 .f32) (w₂ : FVec Ideal S32x32 .f32) (b₂ : FVec Ideal S32 .f32)

/-- The features times the first weights. -/
theorem v0_eq : val_main_v0 (F := Ideal) x w₁ = prod x w₁ := by
  funext i
  obtain ⟨p, q, rfl⟩ : ∃ (p : Fin 10000) (q : Fin 32), i = ix2 p q := ⟨i 0, i 1, eq_ix2 i⟩
  rw [val_main_v0_apply, prod_apply]
  refine Finset.sum_congr rfl fun k _ => ?_
  have el : lidx_main_v0 (ix2 p q) k = ix2 p k := funext fun ax => Fin.ext (by match ax with | ⟨0, _⟩ => rfl | ⟨1, _⟩ => rfl)
  have er : ridx_main_v0 (ix2 p q) k = ix2 k q := funext fun ax => Fin.ext (by match ax with | ⟨0, _⟩ => rfl | ⟨1, _⟩ => rfl)
  rw [el, er]

/-- The adjacency times that. -/
theorem v1_eq : val_main_v1 (F := Ideal) x a w₁ = prod a (prod x w₁) := by
  funext i
  obtain ⟨p, q, rfl⟩ : ∃ (p : Fin 10000) (q : Fin 32), i = ix2 p q := ⟨i 0, i 1, eq_ix2 i⟩
  rw [val_main_v1_apply, prod_apply, v0_eq]
  refine Finset.sum_congr rfl fun k _ => ?_
  have el : lidx_main_v1 (ix2 p q) k = ix2 p k := funext fun ax => Fin.ext (by match ax with | ⟨0, _⟩ => rfl | ⟨1, _⟩ => rfl)
  have er : ridx_main_v1 (ix2 p q) k = ix2 k q := funext fun ax => Fin.ext (by match ax with | ⟨0, _⟩ => rfl | ⟨1, _⟩ => rfl)
  rw [el, er]

/-- A bias broadcast first to one row and then to every row reads the bias at the entry's column. -/
theorem v3_apply (p : Fin 10000) (q : Fin 32) : val_main_v3 (F := Ideal) b₁ (ix2 p q) = asRow b₁ (ix2 (0 : Fin 1) q) := by
  rw [val_main_v3_apply, val_main_v2_apply, asRow_apply]
  exact congrArg b₁ (funext fun ax => Fin.ext (by match ax with | ⟨0, _⟩ => rfl))

theorem v9_apply (p : Fin 10000) (q : Fin 32) : val_main_v9 (F := Ideal) b₂ (ix2 p q) = asRow b₂ (ix2 (0 : Fin 1) q) := by
  rw [val_main_v9_apply, val_main_v8_apply, asRow_apply]
  exact congrArg b₂ (funext fun ax => Fin.ext (by match ax with | ⟨0, _⟩ => rfl))

/-- The first bias added and the clamp. -/
theorem v5_eq : val_main_v5 (F := Ideal) x a w₁ b₁ = biasRelu (prod a (prod x w₁)) (asRow b₁) := by
  funext i
  obtain ⟨p, q, rfl⟩ : ∃ (p : Fin 10000) (q : Fin 32), i = ix2 p q := ⟨i 0, i 1, eq_ix2 i⟩
  rw [val_main_v5_apply, val_main_v4_apply, v1_eq, v3_apply, val_main_call0_v0_apply, val_main_call0_cst_apply, biasRelu_apply]
  rfl

/-- The projection by the second weights: the first layer whole. -/
theorem v6_eq : val_main_v6 (F := Ideal) x a w₁ b₁ w₂ = layer1 a (prod x w₁) (asRow b₁) w₂ := by
  funext i
  obtain ⟨p, q, rfl⟩ : ∃ (p : Fin 10000) (q : Fin 32), i = ix2 p q := ⟨i 0, i 1, eq_ix2 i⟩
  unfold layer1
  rw [val_main_v6_apply, prod_apply, v5_eq]
  refine Finset.sum_congr rfl fun k _ => ?_
  have el : lidx_main_v6 (ix2 p q) k = ix2 p k := funext fun ax => Fin.ext (by match ax with | ⟨0, _⟩ => rfl | ⟨1, _⟩ => rfl)
  have er : ridx_main_v6 (ix2 p q) k = ix2 k q := funext fun ax => Fin.ext (by match ax with | ⟨0, _⟩ => rfl | ⟨1, _⟩ => rfl)
  rw [el, er]

/-- The adjacency times the first layer. -/
theorem v7_eq : val_main_v7 (F := Ideal) x a w₁ b₁ w₂ = prod a (layer1 a (prod x w₁) (asRow b₁) w₂) := by
  funext i
  obtain ⟨p, q, rfl⟩ : ∃ (p : Fin 10000) (q : Fin 32), i = ix2 p q := ⟨i 0, i 1, eq_ix2 i⟩
  rw [val_main_v7_apply, prod_apply, v6_eq]
  refine Finset.sum_congr rfl fun k _ => ?_
  have el : lidx_main_v7 (ix2 p q) k = ix2 p k := funext fun ax => Fin.ext (by match ax with | ⟨0, _⟩ => rfl | ⟨1, _⟩ => rfl)
  have er : ridx_main_v7 (ix2 p q) k = ix2 k q := funext fun ax => Fin.ext (by match ax with | ⟨0, _⟩ => rfl | ⟨1, _⟩ => rfl)
  rw [el, er]

/-- The second bias added and the clamp: the whole block. -/
theorem v11_eq : val_main_v11 (F := Ideal) x a w₁ b₁ w₂ b₂ = gcn x a w₁ b₁ w₂ b₂ := by
  funext i
  obtain ⟨p, q, rfl⟩ : ∃ (p : Fin 10000) (q : Fin 32), i = ix2 p q := ⟨i 0, i 1, eq_ix2 i⟩
  unfold gcn layer2
  rw [val_main_v11_apply, val_main_v10_apply, v7_eq, v9_apply, val_main_call1_v0_apply, val_main_call1_cst_apply, biasRelu_apply]
  rfl

end Cert.ReferenceIdeal.RefValue

end
-- ==== Proof.lean ====
/-
  A two-layer graph convolution, relu (A · (relu (A · (X · W₁) + b₁) · W₂) + b₂), as three kernel launches against the
  same block written with whole-array operations: the two programs compute one function of their arguments on the
  extended reals.

  The kernel program first forms X · W₁ in one launch. Its second launch streams the adjacency in blocks of 80 rows:
  each block is multiplied by the whole of X · W₁, the first bias is added to every row, negatives are clamped to zero
  and the block is multiplied by W₂. Its third launch streams the adjacency again, each block of rows multiplied by the
  whole result of the second launch, the second bias added and negatives clamped. The reference does the same six
  steps on whole arrays.

  Nothing is re-associated between the two: each product is the same sum over the same contracted coordinate on both
  sides, and a matrix unit product into a zero accumulator is that sum. What makes the blockwise computation agree with
  the whole-array one is only that row r of each layer's result depends on the adjacency through its row r alone, so
  the block of rows a grid point writes back is the block of the whole-array result, and the 125 blocks cover the
  array (module `Spec`: the functions and this fact; `KernelBody`: each body is one of them; `KernelRegions`: each
  launch leaves the whole-array function in its output; `KernelValue`: the three launches and the two bias reshapes
  composed; `RefValue`: the reference, stage by stage, is the same function). No law of arithmetic that fails at an
  infinity is used, so the precondition is never opened.

  The frames of the two kernel programs are the generated ones; the reference's is its run with the result dropped.
  The idealization rewrote nothing, so there is nothing to preserve.
-/
import proofs.«101630_g83193516523963_cont_9to1_m_102_2_alg».proof.Defs
import proofs.«101630_g83193516523963_cont_9to1_m_102_2_alg».proof.Proof.Gen.Kernel
import proofs.«101630_g83193516523963_cont_9to1_m_102_2_alg».proof.Proof.Gen.Kernel.Skeleton
import proofs.«101630_g83193516523963_cont_9to1_m_102_2_alg».proof.Proof.Gen.Kernel.Launch
import proofs.«101630_g83193516523963_cont_9to1_m_102_2_alg».proof.Proof.Gen.Kernel.Points
import proofs.«101630_g83193516523963_cont_9to1_m_102_2_alg».proof.Proof.Gen.Kernel.Frame
import proofs.«101630_g83193516523963_cont_9to1_m_102_2_alg».proof.Proof.Gen.KernelIdeal
import proofs.«101630_g83193516523963_cont_9to1_m_102_2_alg».proof.Proof.Gen.KernelIdeal.Skeleton
import proofs.«101630_g83193516523963_cont_9to1_m_102_2_alg».proof.Proof.Gen.KernelIdeal.Launch
import proofs.«101630_g83193516523963_cont_9to1_m_102_2_alg».proof.Proof.Gen.KernelIdeal.Points
import proofs.«101630_g83193516523963_cont_9to1_m_102_2_alg».proof.Proof.Gen.KernelIdeal.Frame
import proofs.«101630_g83193516523963_cont_9to1_m_102_2_alg».proof.Proof.Gen.ReferenceIdeal
import proofs.«101630_g83193516523963_cont_9to1_m_102_2_alg».proof.Proof.Gen.ReferenceIdeal.Run
import proofs.«101630_g83193516523963_cont_9to1_m_102_2_alg».proof.Proof.Gen.ReferenceIdeal.Read
import proofs.«101630_g83193516523963_cont_9to1_m_102_2_alg».proof.Proof.Gen.Pre_finite_inputs
import proofs.«101630_g83193516523963_cont_9to1_m_102_2_alg».proof.Proof.KernelValue
import proofs.«101630_g83193516523963_cont_9to1_m_102_2_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories agreeing on the six arguments, the kernel program's result array ends at the two-layer graph
    convolution of the arguments (`KValue.run`), and the reference's at its composed term of them, which is the same
    function (`RefValue.v11_eq`). -/
theorem algebraic : Cert.algebraic_KernelIdeal_ReferenceIdeal := by
  intro m ρ m' ρ' _ hagree
  refine ⟨_, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2.1, (hagree c).2.2.2.2.2]
  exact (Cert.ReferenceIdeal.Read.val_main_v11_eq _ _ _ _ _ _).trans (Cert.ReferenceIdeal.RefValue.v11_eq _ _ _ _ _ _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
